-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S2x4096 : Shape := ⟨2, ![2, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2x4096 : S_.BroadcastsInDim S2x4096 (![] : Fin 0 → Fin S2x4096.rank)
  reducesTo_S2x4096_S_d0_1 : S2x4096.ReducesTo [0, 1] S_

variable [Facts]

def fn {F : FTy → Type} [FloatOps F] (main_arg0 : FVec F S16384x4096 .f32) (main_arg1 : IVec S2x4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 4294963200#32
  let main_v4 : IVec S2x4096 32 := broadcastInDim S2x4096 ![] bcast_S_S2x4096 main_c_0
  let main_v5 : IVec S2x4096 1 := cmpi .sge main_arg1 main_v4
  let main_c_1 : IVec S_ 32 := constantI S_ 32 4096#32
  let main_v6 : IVec S2x4096 32 := broadcastInDim S2x4096 ![] bcast_S_S2x4096 main_c_1
  let main_v7 : IVec S2x4096 1 := cmpi .slt main_arg1 main_v6
  let main_v8 : IVec S2x4096 1 := andi main_v5 main_v7
  let main_c_2 : IVec S_ 1 := constantI S_ 1 1#1
  let main_v9 : IVec S_ 1 := (fun x v => Host.reduce IntOp.andi x v reducesTo_S2x4096_S_d0_1 h_S_) main_v8 main_c_2
  let main_v10 : IVec S_ 1 := andi main_v3 main_v9
  main_v10
-- ==== Kernel.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S16384x1 : Shape := ⟨2, ![16384, 1]⟩
abbrev S128x4096 : Shape := ⟨2, ![128, 4096]⟩
abbrev S128x1 : Shape := ⟨2, ![128, 1]⟩
abbrev S128 : Shape := ⟨1, ![128]⟩

abbrev nBuf : Space → Nat
  | .hbm => 53
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S2x4096, .i32⟩
  | .hbm, ⟨2, _⟩ => ⟨S1x4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S16384x4096, .f32⟩
  | .hbm, ⟨23, _⟩ => ⟨S16384x4096, .i1⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S1x4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S1x1, .i32⟩
  | .hbm, ⟨42, _⟩ => ⟨S4096x1, .i32⟩
  | .hbm, ⟨43, _⟩ => ⟨S4096x1, .i1⟩
  | .hbm, ⟨44, _⟩ => ⟨S4096x1, .i1⟩
  | .hbm, ⟨45, _⟩ => ⟨S_, .i1⟩
  | .hbm, ⟨46, _⟩ => ⟨S4096, .i1⟩
  | .hbm, ⟨47, _⟩ => ⟨S16384x4096, .f32⟩
  | .hbm, ⟨48, _⟩ => ⟨S16384x4096, .i1⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x1, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x1, .f32⟩
  | .local _ .vmem, ⟨7, _⟩ => ⟨S128x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S16384x4096_1 : S4096.BroadcastsInDim S16384x4096 (![1] : Fin 1 → Fin S16384x4096.rank)
  bcast_S_S16384x4096 : S_.BroadcastsInDim S16384x4096 (![] : Fin 0 → Fin S16384x4096.rank)
  slices_S2x4096_S1x4096_1_0 : S2x4096.Slices ![1, 0] S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  gather_S16384x4096_S4096x1_S16384x4096_0_1_n_n_1_1_163841_wf : GatherDims.WF S16384x4096 S4096x1 S16384x4096 [0] [1] [] [1] [] 1 ![16384, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)

variable [Facts₀]

def gather_S16384x4096_S4096x1_S16384x4096_0_1_n_n_1_1_163841 : GatherDims S16384x4096 S4096x1 S16384x4096 where
  offsetDims := [0]
  collapsedSliceDims := [1]
  operandBatchingDims := []
  startIndicesBatchingDims := []
  startIndexMap := [1]
  indexVectorDim := 1
  sliceSizes := ![16384, 1]
  wf := gather_S16384x4096_S4096x1_S16384x4096_0_1_n_n_1_1_163841_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2x4096 : Shape := ⟨2, ![2, 4096]⟩
abbrev S_ : Shape := ⟨0, ![]⟩
abbrev S2x4096x1 : Shape := ⟨3, ![2, 4096, 1]⟩
abbrev S16384x2x4096 : Shape := ⟨3, ![16384, 2, 4096]⟩
abbrev S16384x1x4096 : Shape := ⟨3, ![16384, 1, 4096]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .i32⟩
  | .hbm, ⟨2, _⟩ => ⟨S_, .i32⟩
  | .hbm, ⟨3, _⟩ => ⟨S2x4096, .i32⟩
  | .hbm, ⟨4, _⟩ => ⟨S2x4096, .i1⟩
  | .hbm, ⟨5, _⟩ => ⟨S_, .i32⟩
  | .hbm, ⟨6, _⟩ => ⟨S2x4096, .i32⟩
  | .hbm, ⟨7, _⟩ => ⟨S2x4096, .i32⟩
  | .hbm, ⟨8, _⟩ => ⟨S2x4096, .i32⟩
  | .hbm, ⟨9, _⟩ => ⟨S2x4096x1, .i32⟩
  | .hbm, ⟨10, _⟩ => ⟨S16384x2x4096, .f32⟩
  | .hbm, ⟨11, _⟩ => ⟨S16384x1x4096, .f32⟩
  | .hbm, ⟨12, _⟩ => ⟨S16384x2x4096, .f32⟩
  | .hbm, ⟨13, _⟩ => ⟨S16384x2x4096, .f32⟩
  | .hbm, ⟨14, _⟩ => ⟨S16384x2x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S16384x4096_S16384x1x4096_0_2 : S16384x4096.BroadcastsInDim S16384x1x4096 (![0, 2] : Fin 2 → Fin S16384x1x4096.rank)
  bcast_S16384x1x4096_S16384x2x4096_0_1_2 : S16384x1x4096.BroadcastsInDim S16384x2x4096 (![0, 1, 2] : Fin 3 → Fin S16384x2x4096.rank)
  reducesTo_S16384x2x4096_S16384_d1_2 : S16384x2x4096.ReducesTo [1, 2] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  gather_S16384x4096_S2x4096x1_S16384x2x4096_0_1_n_n_1_2_163841_wf : GatherDims.WF S16384x4096 S2x4096x1 S16384x2x4096 [0] [1] [] [1] [] 2 ![16384, 1]

variable [Facts₀]

def gather_S16384x4096_S2x4096x1_S16384x2x4096_0_1_n_n_1_2_163841 : GatherDims S16384x4096 S2x4096x1 S16384x2x4096 where
  offsetDims := [0]
  collapsedSliceDims := [1]
  operandBatchingDims := []
  startIndicesBatchingDims := []
  startIndexMap := [1]
  indexVectorDim := 2
  sliceSizes := ![16384, 1]
  wf := gather_S16384x4096_S2x4096x1_S16384x2x4096_0_1_n_n_1_2_163841_wf

class Facts : Prop extends Facts₀ where

variable [Facts]
-- ==== Proof.Lattice.lean ====
/-
  The lattice energy as ONE function of the two argument arrays, and the word arithmetic of a neighbour index.

  Row `r` of the result is `β · ∑_k (cos (θ[r, up k] − θ[r, k]) + cos (θ[r, right k] − θ[r, k]))`, where `θ` is the
  array of angles, `up k` and `right k` are the sites rows 0 and 1 of the neighbour table name for site `k`, and
  `β` is the constant both programs multiply by. A table word names a site the way array indexing reads it: a
  negative word counts from the end of the row (`wrap`), and the read is at the wrapped word taken signed and
  clamped into the row (`site`). For a word in `[-4096, 4096)` the wrapped word already lies in `[0, 4095]`
  (`wrap_nonneg`, `wrap_le`), so the clamp is idle there and a range test on the wrapped word passes.
-/
import Idealize.ShloMosaic.PureOps.Ideal
import Idealize.ShloMosaic.PureOps.Ideal.Laws
import Idealize.ShloMosaic.Lib.ValueIdx
import Idealize.ShloMosaic.Lib.Affine

noncomputable section

namespace Cert.Lattice

open Idealize.ShloMosaic Idealize.ShloMosaic.ValueIdx

/-- The angles: 16384 samples of 4096 sites. -/
abbrev Angles : Shape := ⟨2, ![16384, 4096]⟩
/-- The neighbour table: two directions, one word per site. -/
abbrev Table : Shape := ⟨2, ![2, 4096]⟩
/-- The result: one energy per sample, kept as a column. -/
abbrev Column : Shape := ⟨2, ![16384, 1]⟩

/-- A table word with a negative one counted from the end of the row: `w + 4096` when `w < 0`, else `w`. -/
def wrap (w : BitVec 32) : BitVec 32 :=
  Scalar.select (IntOp.cmpi .slt w 0#32) (IntOp.addi w 4096#32) w

/-- The site a table word names: the wrapped word read signed and clamped into `[0, 4095]`. -/
def site (w : BitVec 32) : Fin 4096 := ⟨min (wrap w).toInt.toNat 4095, by omega⟩

theorem toInt_lo : (4294963200#32 : BitVec 32).toInt = -4096 := by decide
theorem toInt_hi : (4096#32 : BitVec 32).toInt = 4096 := by decide

/-- The wrapped word of a word in `[-4096, 4096)`, as an integer: shifted up by the row length when negative. -/
theorem toInt_wrap {w : BitVec 32} (hlo : -4096 ≤ w.toInt) (hhi : w.toInt < 4096) :
    (wrap w).toInt = if w.toInt < 0 then w.toInt + 4096 else w.toInt := by
  have h0 : (0#32 : BitVec 32).toInt = 0 := by decide
  unfold wrap Scalar.select
  by_cases hc : IntOp.cmpi .slt w 0#32 = 1
  · have hneg : w.toInt < 0 := by have := IntOp.cmpi_slt.1 hc; rwa [h0] at this
    rw [if_pos hc, if_pos hneg]
    show (w + 4096#32).toInt = _
    rw [BitVec.toInt_add, toInt_hi, Int.bmod_def]
    omega
  · have hneg : ¬ w.toInt < 0 := fun h => hc (IntOp.cmpi_slt.2 (by rw [h0]; exact h))
    rw [if_neg hc, if_neg hneg]

/-- In range from below: the wrapped word is not negative. -/
theorem wrap_nonneg {w : BitVec 32} (hlo : -4096 ≤ w.toInt) (hhi : w.toInt < 4096) : 0 ≤ (wrap w).toInt := by
  rw [toInt_wrap hlo hhi]; split <;> omega

/-- In range from above: the wrapped word is at most the last site. -/
theorem wrap_le {w : BitVec 32} (hlo : -4096 ≤ w.toInt) (hhi : w.toInt < 4096) : (wrap w).toInt ≤ 4095 := by
  rw [toInt_wrap hlo hhi]; split <;> omega

/-- The energy of every sample: `β` times the sum over the sites of the two neighbour cosines. -/
def energy (θ : Angles.Idx → EReal) (nb : Table.Idx → BitVec 32) : Column.Idx → EReal :=
  fun i => Ideal.ofBits .f32 0x3F800000#32 *
    ∑ k : Fin 4096, (Ideal.cos (θ (ix2 (i 0) (site (nb (ix2 0 k)))) - θ (ix2 (i 0) k))
      + Ideal.cos (θ (ix2 (i 0) (site (nb (ix2 1 k)))) - θ (ix2 (i 0) k)))

/-- A sum over (direction, site) is the sum over the sites of the two directions' terms: addition of extended
    reals is commutative and associative, so no finiteness is asked. -/
theorem sum_pairs (g : Fin 2 → Fin 4096 → EReal) :
    ∑ p : Fin 2 × Fin 4096, g p.1 p.2 = ∑ k : Fin 4096, (g 0 k + g 1 k) := by
  rw [Fintype.sum_prod_type, Fin.sum_univ_two, ← Finset.sum_add_distrib]

end Cert.Lattice

end
-- ==== Proof.TableRange.lean ====
/-
  What the precondition says of the neighbour table: every word lies in `[-4096, 4096)`, the range in which
  indexing a row of 4096 sites is defined (a negative word counting from the end).

  The precondition is the conjunction of two `all`s; the second is over the table and tests each word `w` by
  `-4096 ≤ w` and `w < 4096` as signed comparisons against broadcast constants. An `all` that came out true had a
  true at every index, a broadcast scalar reads the scalar everywhere, and a signed comparison that came out
  true is the order of the words' integer values.
-/
import proofs.«406329_j88691074662571_3_alg».proof.Pre_finite_inputs
import proofs.«406329_j88691074662571_3_alg».proof.Proof.Lattice
import Idealize.ShloMosaic.Lib.ReduceAll
import Idealize.ShloMosaic.Lib.StableHlo.Predicate
import Idealize.ShloMosaic.Lib.ValueIdx

noncomputable section

namespace Cert.TableRange

open Idealize.ShloMosaic Idealize.ShloMosaic.ValueIdx Cert.Pre_finite_inputs

variable [Cert.Pre_finite_inputs.Facts]

/-- A rank-0 shape has one index. -/
instance : Subsingleton S_.Idx := ⟨fun _ _ => funext fun d => d.elim0⟩

/-- A constant broadcast over the table reads the constant at every word. -/
theorem const_at (c : BitVec 32) (i : S2x4096.Idx) :
    broadcastInDim S2x4096 ![] Facts.bcast_S_S2x4096 (constantI S_ 32 c) i = c :=
  StableHlo.Predicate.bcast_scalar Facts.bcast_S_S2x4096 Facts.h_S_ _ i

/-- Under the precondition every table word, read signed, lies in `[-4096, 4096)`. -/
theorem word_range {F : FTy → Type} [FloatOps F] (θ : FVec F S16384x4096 .f32) (nb : IVec S2x4096 32)
    (h : Cert.Pre_finite_inputs.fn (F := F) θ nb = fun _ => 1#1) (i : S2x4096.Idx) :
    -4096 ≤ (nb i).toInt ∧ (nb i).toInt < 4096 := by
  have h0 := congrFun h ix0
  dsimp only [Cert.Pre_finite_inputs.fn] at h0
  have h1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  rw [const_at] at hge' hlt'
  rw [Cert.Lattice.toInt_lo] at hge'
  rw [Cert.Lattice.toInt_hi] at hlt'
  exact ⟨hge', hlt'⟩

end Cert.TableRange

end
-- ==== Proof.Take.lean ====
/-
  One direction's neighbour angles, as the program computes them before its region, read at an index.

  The direction's row of the table is wrapped word by word; the gather reads, at (sample r, site k), the angle of
  sample r at the wrapped word of k taken signed and clamped into the row; and a mask replaces the columns whose
  wrapped word falls outside `[0, 4095]` by a fill value (`take`). For a row whose words all lie in `[-4096, 4096)`
  every wrapped word passes the range test (`Lattice.wrap_nonneg`, `wrap_le`), so the test's `and` over the unit axis
  is 1 at every column (`mask_all`), nothing is filled, and column k of the taken array is the angles' column
  `site` of the row's word k (`take_apply`).
-/
import proofs.«406329_j88691074662571_3_alg».proof.Proof.Gen.KernelIdeal
import proofs.«406329_j88691074662571_3_alg».proof.Proof.Lattice
import Idealize.ShloMosaic.Lib.ValueIdx
import Idealize.ShloMosaic.Lib.Pipeline.Value
import Idealize.ShloMosaic.Lib.StableHlo.Predicate
import Idealize.ShloMosaic.PureOps.Reduce

noncomputable section

namespace Cert.Take

open Cert.KernelIdeal Cert.KernelIdeal.Gen
open Idealize.ShloMosaic Idealize.ShloMosaic.ValueIdx Cert.Lattice

/-- The gather's record, under a short name. -/
abbrev K := gather_S16384x4096_S4096x1_S16384x4096_0_1_n_n_1_1_163841

/-- Row `a` of the table as a vector of 4096 words (`off` is the slice's offset `(a, 0)`). -/
def row (nb : IVec S2x4096 32) (off : Fin 2 → Nat) (hs : S2x4096.Slices off S1x4096) : IVec S4096 32 :=
  shapeCast S4096 (extractStridedSlice S1x4096 off nb hs) shapeCasts_S1x4096_S4096

/-- The row's words wrapped. -/
def wrapRow (v : IVec S4096 32) : IVec S4096 32 :=
  select (cmpi .slt v (broadcastInDim S4096 ![] bcast_S_S4096 (constantI S_ 32 0#32)))
    (addi v (broadcastInDim S4096 ![] bcast_S_S4096 (constantI S_ 32 4096#32))) v

/-- The wrapped words as the gather's column of start indices. -/
def startCol (v : IVec S4096 32) : IVec S4096x1 32 :=
  broadcastInDim S4096x1 ![0] bcast_S4096_S4096x1_0 (wrapRow v)

/-- The range test on each start index: `0 ≤ n` and `n ≤ 4095`. -/
def inRow (v : IVec S4096 32) : IVec S4096x1 1 :=
  andi (cmpi .sge (startCol v) (broadcastInDim S4096x1 ![] bcast_S_S4096x1 (constantI S_ 32 0#32)))
    (cmpi .sle (startCol v) (broadcastInDim S4096x1 ![0, 1] bcast_S1x1_S4096x1_0_1
      (broadcastInDim S1x1 ![1] bcast_S1_S1x1_1 (constantI S1 32 4095#32))))

/-- One direction's neighbour angles: the gather where the start index is in the row, the fill value elsewhere. -/
def take (θ : FVec Ideal S16384x4096 .f32) (v : IVec S4096 32) : FVec Ideal S16384x4096 .f32 :=
  select (broadcastInDim S16384x4096 ![1] bcast_S4096_S16384x4096_1
      (Host.reduce IntOp.andi (inRow v) (constantI S_ 1 1#1) reducesTo_S4096x1_S4096_d1 h_S_))
    (Host.gather K θ (startCol v))
    (broadcastInDim S16384x4096 ![] bcast_S_S16384x4096 (constant (F := Ideal) S_ .f32 0x7FC00000#32))

/-- Word k of row a is the table's word (a, k). -/
theorem row_apply (nb : IVec S2x4096 32) (a : Fin 2) (hs : S2x4096.Slices ![a.val, 0] S1x4096) (k : Fin 4096) :
    row nb ![a.val, 0] hs (ix1 k) = nb (ix2 a k) := by
  unfold row
  refine (shapeCast_apply _ shapeCasts_S1x4096_S4096 (ix1 k) (ix2 (0 : Fin 1) k) ?_).trans ?_
  · rw [Shape.rowMajor_val_two, Shape.rowMajor_val_one]
    show 0 * 4096 + k.val = k.val
    omega
  · exact extractStridedSlice_apply _ nb hs (ix2 (0 : Fin 1) k) (ix2 a k) (fun ax => match ax with
      | ⟨0, _⟩ => by show a.val = a.val + 0; omega
      | ⟨1, _⟩ => by show k.val = 0 + k.val; omega)

/-- A constant broadcast over the row reads the constant at every word. -/
theorem const_row (c : BitVec 32) (j : S4096.Idx) :
    broadcastInDim S4096 ![] bcast_S_S4096 (constantI S_ 32 c) j = c :=
  StableHlo.Predicate.bcast_scalar bcast_S_S4096 h_S_ _ j

/-- The wrapped row, word by word. -/
theorem wrapRow_apply (v : IVec S4096 32) (j : S4096.Idx) : wrapRow v j = wrap (v j) := by
  unfold wrapRow wrap
  rw [select_apply]
  show Scalar.select (IntOp.cmpi .slt (v j) (broadcastInDim S4096 ![] bcast_S_S4096 (constantI S_ 32 0#32) j))
    (IntOp.addi (v j) (broadcastInDim S4096 ![] bcast_S_S4096 (constantI S_ 32 4096#32) j)) (v j) = _
  rw [const_row, const_row]

/-- The start index of column k is the wrapped word k. -/
theorem startCol_apply (v : IVec S4096 32) (k : Fin 4096) (q : Fin 1) : startCol v (ix2 k q) = wrap (v (ix1 k)) := by
  unfold startCol
  rw [broadcastInDim_apply _ bcast_S4096_S4096x1_0 _ (ix2 k q) (ix1 k) (fun a => match a with
    | ⟨0, _⟩ => by show k.val = if (4096 : Nat) = 1 then 0 else k.val; rw [if_neg (by decide)])]
  exact wrapRow_apply v (ix1 k)

theorem toInt_zero : (0#32 : BitVec 32).toInt = 0 := by decide
theorem toInt_last : (4095#32 : BitVec 32).toInt = 4095 := by decide

/-- A row of words in `[-4096, 4096)` passes the range test at every column. -/
theorem inRow_apply (v : IVec S4096 32) (hv : ∀ j, -4096 ≤ (v j).toInt ∧ (v j).toInt < 4096) (j : S4096x1.Idx) :
    inRow v j = 1#1 := by
  obtain ⟨k, q, rfl⟩ : ∃ (k : Fin 4096) (q : Fin 1), j = ix2 k q := ⟨j 0, j 1, eq_ix2 j⟩
  unfold inRow
  show IntOp.andi
    (IntOp.cmpi .sge (startCol v (ix2 k q)) (broadcastInDim S4096x1 ![] bcast_S_S4096x1 (constantI S_ 32 0#32) (ix2 k q)))
    (IntOp.cmpi .sle (startCol v (ix2 k q)) (broadcastInDim S4096x1 ![0, 1] bcast_S1x1_S4096x1_0_1
      (broadcastInDim S1x1 ![1] bcast_S1_S1x1_1 (constantI S1 32 4095#32)) (ix2 k q))) = 1#1
  have e0 : broadcastInDim S4096x1 ![] bcast_S_S4096x1 (constantI S_ 32 0#32) (ix2 k q) = 0#32 :=
    StableHlo.Predicate.bcast_scalar bcast_S_S4096x1 h_S_ _ _
  have e1 : broadcastInDim S4096x1 ![0, 1] bcast_S1x1_S4096x1_0_1
      (broadcastInDim S1x1 ![1] bcast_S1_S1x1_1 (constantI S1 32 4095#32)) (ix2 k q) = 4095#32 := by
    rw [broadcastInDim_apply _ bcast_S1x1_S4096x1_0_1 _ (ix2 k q) (ix2 (0 : Fin 1) (0 : Fin 1)) (fun a => match a with
        | ⟨0, _⟩ => by show 0 = if (1 : Nat) = 1 then 0 else k.val; rw [if_pos rfl]
        | ⟨1, _⟩ => by show 0 = if (1 : Nat) = 1 then 0 else q.val; rw [if_pos rfl]),
      broadcastInDim_apply _ bcast_S1_S1x1_1 _ (ix2 (0 : Fin 1) (0 : Fin 1)) (ix1 (0 : Fin 1)) (fun a => match a with
        | ⟨0, _⟩ => by show 0 = if (1 : Nat) = 1 then 0 else 0; rw [if_pos rfl])]
    rfl
  rw [startCol_apply, e0, e1]
  obtain ⟨hlo, hhi⟩ := hv (ix1 k)
  exact IntOp.andi_eq_one.2 ⟨IntOp.cmpi_sge.2 (by rw [toInt_zero]; exact wrap_nonneg hlo hhi),
    IntOp.cmpi_sle.2 (by rw [toInt_last]; exact wrap_le hlo hhi)⟩

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- So the mask is 1 at every column. -/
theorem mask_all (v : IVec S4096 32) (hv : ∀ j, -4096 ≤ (v j).toInt ∧ (v j).toInt < 4096) (j : S4096.Idx) :
    Host.reduce IntOp.andi (inRow v) (constantI S_ 1 1#1) reducesTo_S4096x1_S4096_d1 h_S_ j = 1#1 := by
  rw [Host.reduce_eq_foldl]
  exact foldl_andi_ones (inRow v) _ fun i _ => inRow_apply v hv i

/-- THE GATHER READ AT (r, k): the operand's row r at the start index `idx[k, 0]`, read signed and clamped into
    `[0, 4095]` (the sample axis an offset axis, the site axis collapsed and named by the start index map). -/
theorem gather_apply {α : Type} (x : S16384x4096.Idx → α) (idx : IVec S4096x1 32) (r : Fin 16384) (k : Fin 4096)
    (w : BitVec 32) (hw : idx (ix2 k (0 : Fin 1)) = w) :
    Host.gather K x idx (ix2 r k) = x (ix2 r ⟨min w.toInt.toNat 4095, by omega⟩) := by
  unfold Host.gather
  congr 1
  funext ax
  refine Fin.ext ?_
  show K.start (ix2 r k) idx ax + K.batchCoord (ix2 r k) ax + K.offCoord (ix2 r k) ax = _
  rw [GatherDims.batchCoord_eq_zero _ _ _ List.not_mem_nil, Nat.add_zero]
  match ax with
  | ⟨0, _⟩ =>
    unfold GatherDims.start
    rw [dif_neg (show ¬ ((⟨0, by decide⟩ : Fin S16384x4096.rank) ∈ K.startIndexMap) by decide), Nat.zero_add]
    unfold GatherDims.offCoord
    rw [dif_pos (show (⟨0, by decide⟩ : Fin S16384x4096.rank) ∈ K.sKept by decide)]
    rfl
  | ⟨1, _⟩ =>
    rw [GatherDims.offCoord_eq_zero _ _ _ (fun h => ((GatherDims.mem_sKept _ _).mp h).1 (List.mem_singleton.mpr rfl)),
      Nat.add_zero]
    unfold GatherDims.start
    rw [dif_pos (show (⟨1, by decide⟩ : Fin S16384x4096.rank) ∈ K.startIndexMap from List.mem_singleton.mpr rfl)]
    have hsi : K.siIdx (ix2 r k) ⟨List.idxOf (⟨1, by decide⟩ : Fin S16384x4096.rank) K.startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, hw]
    rfl

/-- COLUMN k OF THE TAKEN ARRAY, for a row of words in `[-4096, 4096)`: the angles' column `site` of word k. -/
theorem take_apply (θ : FVec Ideal S16384x4096 .f32) (v : IVec S4096 32)
    (hv : ∀ j, -4096 ≤ (v j).toInt ∧ (v j).toInt < 4096) (r : Fin 16384) (k : Fin 4096) :
    take θ v (ix2 r k) = θ (ix2 r (site (v (ix1 k)))) := by
  unfold take
  rw [select_apply, broadcastInDim_apply _ bcast_S4096_S16384x4096_1 _ (ix2 r k) (ix1 k) (fun a => match a with
    | ⟨0, _⟩ => by show k.val = if (4096 : Nat) = 1 then 0 else k.val; rw [if_neg (by decide)]),
    mask_all v hv, select_one]
  exact gather_apply θ _ r k _ (startCol_apply v k 0)

end Cert.Take

end
-- ==== Proof.Neighbours.lean ====
/-
  The two neighbour arrays the kernel's region is launched on.

  Before the region the program takes, for each direction, that direction's row of the table and gathers every
  sample's angles along it (`Take.take`). Reading the host operations in order, the region finds in its second
  window's array the take along row 0 and in its third window's array the take along row 1 (`up_entry`,
  `right_entry`). When every word of the table lies in `[-4096, 4096)`, column k of those arrays is the angles'
  column `site` of the table's word (0, k), respectively (1, k) (`up_apply`, `right_apply`), and the first window's
  array is the angles themselves (the generated `V_main_arg0`).
-/
import proofs.«406329_j88691074662571_3_alg».proof.Proof.Gen.KernelIdeal.Frame
import proofs.«406329_j88691074662571_3_alg».proof.Proof.Take
import Idealize.ShloMosaic.Lib.StableHlo.Run

set_option maxRecDepth 16384

noncomputable section

namespace Cert.Neighbours

open Cert.KernelIdeal Cert.KernelIdeal.Gen
open Idealize.ShloMosaic Idealize.ShloMosaic.TcCoe Idealize.ShloMosaic.ValueIdx Idealize.ShloMosaic.StableHlo
open Idealize.SL.Sem Cert.Lattice Cert.Take

variable (m : (ℓ : Loc nD τ sig) → Buf (Elt Ideal) ℓ)

/-- The angles as launched, on core `c`. -/
abbrev angles (c : Dev nD) : FVec Ideal S16384x4096 .f32 := m ((c : Thread nD τ).loc main_arg0)
/-- The neighbour table as launched, on core `c`. -/
abbrev table (c : Dev nD) : IVec S2x4096 32 := m ((c : Thread nD τ).loc main_arg1)

set_option maxHeartbeats 4000000 in
/-- The region finds, in its second window's array, the take along row 0 of the table. -/
theorem up_entry (c : Dev nD) :
    (V m c main_v2 : S16384x4096.Idx → EReal)
      = take (angles m c) (row (table m c) ![0, 0] slices_S2x4096_S1x4096_0_0) := by
  dsimp only [V]
  simp only [hostOps0, hostOps0_1, hostOps0_2, hostOps0_3, List.flatten_cons, List.flatten_nil, List.append_nil,
    List.cons_append, List.nil_append]
  after_results_simp
  rfl

set_option maxHeartbeats 4000000 in
/-- The region finds, in its third window's array, the take along row 1 of the table. -/
theorem right_entry (c : Dev nD) :
    (V m c main_v5 : S16384x4096.Idx → EReal)
      = take (angles m c) (row (table m c) ![1, 0] slices_S2x4096_S1x4096_1_0) := by
  dsimp only [V]
  simp only [hostOps0, hostOps0_1, hostOps0_2, hostOps0_3, List.flatten_cons, List.flatten_nil, List.append_nil,
    List.cons_append, List.nil_append]
  after_results_simp
  rfl

/-- A row of a table whose words lie in `[-4096, 4096)` has its words there. -/
theorem row_range (nb : IVec S2x4096 32) (hnb : ∀ i, -4096 ≤ (nb i).toInt ∧ (nb i).toInt < 4096) (a : Fin 2)
    (hs : S2x4096.Slices ![a.val, 0] S1x4096) (j : S4096.Idx) :
    -4096 ≤ (row nb ![a.val, 0] hs j).toInt ∧ (row nb ![a.val, 0] hs j).toInt < 4096 := by
  obtain ⟨k, rfl⟩ : ∃ k : Fin 4096, j = ix1 k := ⟨j 0, eq_ix1 j⟩
  rw [row_apply]
  exact hnb _

/-- Under the table's range, the second window's array at (r, k) is the angle of sample r at the site word (0, k) names. -/
theorem up_apply (c : Dev nD) (hnb : ∀ i, -4096 ≤ (table m c i).toInt ∧ (table m c i).toInt < 4096)
    (r : Fin 16384) (k : Fin 4096) :
    (V m c main_v2 : S16384x4096.Idx → EReal) (ix2 r k) = angles m c (ix2 r (site (table m c (ix2 0 k)))) := by
  have hrow : ∀ j, -4096 ≤ (row (table m c) ![0, 0] slices_S2x4096_S1x4096_0_0 j).toInt
      ∧ (row (table m c) ![0, 0] slices_S2x4096_S1x4096_0_0 j).toInt < 4096 :=
    row_range (table m c) hnb 0 slices_S2x4096_S1x4096_0_0
  exact (congrFun (up_entry m c) (ix2 r k)).trans
    ((take_apply (angles m c) (row (table m c) ![0, 0] slices_S2x4096_S1x4096_0_0) hrow r k).trans
      (congrArg (fun w => angles m c (ix2 r (site w))) (row_apply (table m c) 0 slices_S2x4096_S1x4096_0_0 k)))

/-- Under the table's range, the third window's array at (r, k) is the angle of sample r at the site word (1, k) names. -/
theorem right_apply (c : Dev nD) (hnb : ∀ i, -4096 ≤ (table m c i).toInt ∧ (table m c i).toInt < 4096)
    (r : Fin 16384) (k : Fin 4096) :
    (V m c main_v5 : S16384x4096.Idx → EReal) (ix2 r k) = angles m c (ix2 r (site (table m c (ix2 1 k)))) := by
  have hrow : ∀ j, -4096 ≤ (row (table m c) ![1, 0] slices_S2x4096_S1x4096_1_0 j).toInt
      ∧ (row (table m c) ![1, 0] slices_S2x4096_S1x4096_1_0 j).toInt < 4096 :=
    row_range (table m c) hnb 1 slices_S2x4096_S1x4096_1_0
  exact (congrFun (right_entry m c) (ix2 r k)).trans
    ((take_apply (angles m c) (row (table m c) ![1, 0] slices_S2x4096_S1x4096_1_0) hrow r k).trans
      (congrArg (fun w => angles m c (ix2 r (site w))) (row_apply (table m c) 1 slices_S2x4096_S1x4096_1_0 k)))

end Cert.Neighbours

end
-- ==== Proof.KernelEnergy.lean ====
/-
  The kernel's result array is the lattice energy.

  The region has 128 points; point t takes rows [128 t, 128 t + 128) of three arrays — the angles and the two
  neighbour arrays, all 4096 columns — and writes rows [128 t, 128 t + 128) of the result column. Its body sums,
  along each row of the block, the cosines of (neighbour − angle) for the two neighbour blocks and multiplies by
  β (`block_apply`: the body's value at row p of the block, the lane sum read as a sum over the 4096 columns).
  Since every window's block at point t starts at row 128 t and column 0 (`idx_facts`), what point t writes back
  is block t of ONE function of the three whole arrays, `rowEnergy` (`flushed_eq`); the 128 blocks tile the result
  column (`cover`), so the array ends holding `rowEnergy` of the three arrays as the region found them (`final`).
  With the angles unchanged by the host operations and the two neighbour arrays read at an index
  (`Neighbours.up_apply`, `right_apply`, under the table's range), that is `Lattice.energy` (`rowEnergy_eq`, `run`).
-/
import proofs.«406329_j88691074662571_3_alg».proof.Proof.Gen.KernelIdeal.Value
import proofs.«406329_j88691074662571_3_alg».proof.Proof.Neighbours
import Idealize.ShloMosaic.PureOps.Ideal.Laws
import Idealize.ShloMosaic.Lib.Pipeline.Value
import Idealize.ShloMosaic.Lib.ValueIdx

set_option maxRecDepth 16384

noncomputable section

namespace Cert.KernelEnergy

open Cert.KernelIdeal Cert.KernelIdeal.Gen
open Idealize.ShloMosaic Idealize.ShloMosaic.TcCoe Idealize.ShloMosaic.ValueIdx Idealize.SL.Sem
open Idealize.ShloMosaic.Pipeline (Dat)
open Cert.Lattice Cert.Neighbours

/-- The body on whole arrays: row r of the result from rows r of the angles `A` and the two neighbour arrays. -/
def rowEnergy (A X Y : S16384x4096.Idx → EReal) : S16384x1.Idx → EReal :=
  fun i => Ideal.ofBits .f32 0x3F800000#32 *
    ∑ k : Fin 4096, (Ideal.cos (X (ix2 (i 0) k) - A (ix2 (i 0) k)) + Ideal.cos (Y (ix2 (i 0) k) - A (ix2 (i 0) k)))

/-- THE BODY'S VALUE AT ROW p OF A BLOCK, over any three blocks: β times the sum over the 4096 columns of the two
    cosines. (The shape casts are of a block to its own shape; the lane sum is over the column axis.) -/
theorem block_apply (A X Y : FVec Ideal S128x4096 .f32) (y : S128x1.Idx) (p : Fin 128) (hp : (y 0).val = p.val) :
    Value.E3 (F := Ideal) X A Y y = Ideal.ofBits .f32 0x3F800000#32 *
      ∑ k : Fin 4096, (Ideal.cos (X (ix2 p k) - A (ix2 p k)) + Ideal.cos (Y (ix2 p k) - A (ix2 p k))) := by
  show Ideal.ofBits .f32 0x3F800000#32 * (multiReduction .add [1] S128
      (addf (cos (subf (shapeCast S128x4096 X shapeCasts_S128x4096_S128x4096) A))
        (cos (subf (shapeCast S128x4096 Y shapeCasts_S128x4096_S128x4096) A)))
      0x00000000#32 reduces_S128x4096_S128 (.inl rfl) rfl (Value.ix3_0 y)) = _
  rw [shapeCast_self, shapeCast_self]
  refine congrArg _ ((Ideal.multiReduction_add_single _ _ reduces_S128x4096_S128 _ _ _).trans ?_)
  refine Finset.sum_congr rfl fun k _ => ?_
  have e : reduces_S128x4096_S128.lift (Value.ix3_0 y) k = ix2 p k := by
    funext a; refine Fin.ext ?_
    match a with
    | ⟨0, _⟩ => exact hp
    | ⟨1, _⟩ => rfl
  rw [e]
  rfl

variable (m : (ℓ : Loc nD τ sig) → Buf (Elt Ideal) ℓ) (ρ : Dev nD → PrngReg)

theorem hz : (![0, 0] : Fin 2 → Nat) = fun _ => 0 := funext fun a => by fin_cases a <;> rfl

/-- The three arrays as the region finds them, on core `c`: the angles and the two neighbour arrays. -/
abbrev anglesIn (c : Dev nD) : FVec Ideal S16384x4096 .f32 := V m c main_arg0
abbrev upIn (c : Dev nD) : FVec Ideal S16384x4096 .f32 := V m c main_v2
abbrev rightIn (c : Dev nD) : FVec Ideal S16384x4096 .f32 := V m c main_v5

/-- One column's two cosines depend only on the three entries. -/
theorem pair_congr {a a' b b' x x' : EReal} (ha : a = a') (hb : b = b') (hx : x = x') :
    Ideal.cos (a - x) + Ideal.cos (b - x) = Ideal.cos (a' - x') + Ideal.cos (b' - x') := by
  rw [ha, hb, hx]

/-- The printed index maps, decided over the grid: every window's block at a point starts at the output block's
    row and at column 0, and there are 128 block rows. -/
theorem idx_facts : ∀ t : Fin cfg0.N, win0_0.index t (0 : Fin 2) = win0_3.index t (0 : Fin 2)
    ∧ win0_1.index t (0 : Fin 2) = win0_3.index t (0 : Fin 2)
    ∧ win0_2.index t (0 : Fin 2) = win0_3.index t (0 : Fin 2)
    ∧ win0_0.index t (1 : Fin 2) = 0 ∧ win0_1.index t (1 : Fin 2) = 0 ∧ win0_2.index t (1 : Fin 2) = 0
    ∧ win0_3.index t (1 : Fin 2) = 0 ∧ win0_3.index t (0 : Fin 2) ≤ 127 :=
  (by decide +kernel : ∀ t : Fin grid0.N, _)

/-- Every block row is some point's. -/
theorem idx_onto : ∀ q : Fin 128, ∃ t : Fin cfg0.N, win0_3.index t = ![q.val, 0] :=
  (by decide +kernel : ∀ q : Fin 128, ∃ t : Fin grid0.N, win0_3.index t = ![q.val, 0])

/-- WHAT POINT `t` WRITES BACK is block `t` of `rowEnergy` of the three arrays as the region finds them. -/
theorem flushed_eq (c : Dev nD) (t : Fin cfg0.N) :
    (dats m 0 c).flushed 3 t = ((cfg0.win 3).blk t).view.read (Elt Ideal)
      (rowEnergy (anglesIn m c) (upIn m c) (rightIn m c)) := by
  rw [Value.flushed3]
  unfold out0_3
  obtain ⟨e0, e1, e2, e3, e4, e5, e6, e7⟩ := idx_facts t
  funext y
  revert y
  intro (y : S128x1.Idx)
  refine (Value.canon3_eq (F := Ideal) (View.ld (iblk m c 1 t) r0_0) (View.ld (iblk m c 0 t) r0_0)
    (View.ld (iblk m c 2 t) r0_0) y).trans ?_
  simp only [View.ld_unit_zero (S := S128x4096) hz]
  refine (block_apply (iblk m c 0 t) (iblk m c 1 t) (iblk m c 2 t) y ⟨(y 0).val, (y 0).isLt⟩ rfl).trans ?_
  show _ = rowEnergy (anglesIn m c) (upIn m c) (rightIn m c) (((cfg0.win 3).blk t).view.emb y)
  unfold rowEnergy
  refine congrArg _ (Finset.sum_congr rfl fun k _ => ?_)
  have hy : (y 0).val < 128 := (y 0).isLt
  have h0 : ((cfg0.win 0).blk t).view.emb (ix2 (⟨(y 0).val, (y 0).isLt⟩ : Fin 128) k)
      = ix2 ((((cfg0.win 3).blk t).view.emb y) 0) k := by
    funext a; apply Fin.ext
    match a with
    | ⟨0, _⟩ => show win0_0.index t (0 : Fin 2) * 128 + 1 * (y 0).val = win0_3.index t (0 : Fin 2) * 128 + 1 * (y 0).val; omega
    | ⟨1, _⟩ => show win0_0.index t (1 : Fin 2) * 4096 + 1 * k.val = k.val; omega
  have h1 : ((cfg0.win 1).blk t).view.emb (ix2 (⟨(y 0).val, (y 0).isLt⟩ : Fin 128) k)
      = ix2 ((((cfg0.win 3).blk t).view.emb y) 0) k := by
    funext a; apply Fin.ext
    match a with
    | ⟨0, _⟩ => show win0_1.index t (0 : Fin 2) * 128 + 1 * (y 0).val = win0_3.index t (0 : Fin 2) * 128 + 1 * (y 0).val; omega
    | ⟨1, _⟩ => show win0_1.index t (1 : Fin 2) * 4096 + 1 * k.val = k.val; omega
  have h2 : ((cfg0.win 2).blk t).view.emb (ix2 (⟨(y 0).val, (y 0).isLt⟩ : Fin 128) k)
      = ix2 ((((cfg0.win 3).blk t).view.emb y) 0) k := by
    funext a; apply Fin.ext
    match a with
    | ⟨0, _⟩ => show win0_2.index t (0 : Fin 2) * 128 + 1 * (y 0).val = win0_3.index t (0 : Fin 2) * 128 + 1 * (y 0).val; omega
    | ⟨1, _⟩ => show win0_2.index t (1 : Fin 2) * 4096 + 1 * k.val = k.val; omega
  exact pair_congr (congrArg (upIn m c) h1) (congrArg (rightIn m c) h2) (congrArg (anglesIn m c) h0)

/-- An index of the result column is in point `t`'s block iff each coordinate is in the block's range on its axis. -/
theorem mem_blk (t : Fin cfg0.N) (i : S16384x1.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v6).slice (win0_3.rect t)).set ↔ _
  rw [View.set_slice_whole, Rect.mem_set_unit]
  exact Iff.rfl

/-- The 128 blocks tile the result column: row r is in the block of the point whose block row is r / 128. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1 ≤ (i 1).val ∧ (i 1).val < win0_3.index t (1 : Fin 2) * 1 + 1; omega

/-- THE RESULT ARRAY after the run: `rowEnergy` of the three arrays as the region found them. -/
theorem final (c : Dev nD) :
    (dats m 0 c).arrAt 3 cfg0.N = rowEnergy (anglesIn m c) (upIn m c) (rightIn m c) :=
  (dats m 0 c).arrAt_eq_of_cover 3 (rowEnergy (anglesIn m c) (upIn m c) (rightIn m c))
    (fun t _ => flushed_eq m c t) cover

/-- With the neighbour arrays read at an index, that is the lattice energy of the arguments. -/
theorem rowEnergy_eq (c : Dev nD) (hnb : ∀ i, -4096 ≤ (table m c i).toInt ∧ (table m c i).toInt < 4096) :
    rowEnergy (anglesIn m c) (upIn m c) (rightIn m c) = energy (angles m c) (table m c) := by
  funext i
  obtain ⟨r, q, rfl⟩ : ∃ (r : Fin 16384) (q : Fin 1), i = ix2 r q := ⟨i 0, i 1, eq_ix2 i⟩
  unfold rowEnergy energy
  refine congrArg _ (Finset.sum_congr rfl fun k _ => ?_)
  exact pair_congr (up_apply m c hnb r k) (right_apply m c hnb r k) (congrFun (V_main_arg0 m c) (ix2 r k))

/-- THE KERNEL'S RUN: under the table's range every execution ends with the result array at the lattice energy
    of the arguments, and the arguments unchanged. -/
theorem run (hnb : ∀ (c : Dev nD) i, -4096 ≤ (table m c i).toInt ∧ (table m c i).toInt < 4096) :
    θ_run defs (onTc (τ := τ) (main (F := Ideal))) ⟨m, fun _ => 0, ρ⟩ fun r => ∀ c : Dev nD,
      r.2.mem ((c : Thread nD τ).loc main_v6) = energy (angles m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (rowEnergy_eq m c (hnb c))), (h c).2⟩)
    (Value.run_blocks m ρ)

end Cert.KernelEnergy

end
-- ==== Proof.ReferenceEnergy.lean ====
/-
  The reference computes the lattice energy.

  Its stages, read at an index. The table is wrapped word by word (`wrapped`). The gather reads, at result
  index (sample r, direction a, site k), the angle of sample r at the wrapped word of (a, k) taken signed and
  clamped into the row — which is `site` of that word (`gather_apply`, `gathered`). The difference with the
  sample's own angle at k, broadcast over the two directions, and its cosine are pointwise (`term_eq`). The sum
  over the direction and site axes, at sample r, runs over exactly the indices (r, a, k), which (a, k) ↦ (r, a, k)
  enumerates (`sum_drop`); from the initial value 0 it is the sum over the sites of the two directions' cosines
  (`Lattice.sum_pairs`). The product with the broadcast constant is pointwise.
-/
import proofs.«406329_j88691074662571_3_alg».proof.Proof.Gen.ReferenceIdeal.Read
import proofs.«406329_j88691074662571_3_alg».proof.Proof.Lattice
import Idealize.ShloMosaic.Lib.ValueIdx
import Idealize.ShloMosaic.PureOps.Ideal.Laws

noncomputable section

namespace Cert.ReferenceEnergy

open Cert.ReferenceIdeal Cert.ReferenceIdeal.Gen Cert.ReferenceIdeal.Read
open Idealize.ShloMosaic Idealize.ShloMosaic.ValueIdx Cert.Lattice

/-- The gather's record, under a short name. -/
abbrev G := gather_S16384x4096_S2x4096x1_S16384x2x4096_0_1_n_n_1_2_163841

/-- THE GATHER READ AT (r, a, k): the operand's row r at the start index `idx[a, k, 0]`, read signed and
    clamped into `[0, 4095]`. The sample axis is an offset axis (start 0, offset r); the site axis is collapsed
    and named by the start index map (offset 0, start the clamped word). -/
theorem gather_apply {α : Type} (x : S16384x4096.Idx → α) (idx : IVec S2x4096x1 32) (r : Fin 16384) (a : Fin 2)
    (k : Fin 4096) (w : BitVec 32) (hw : idx (ix3 a k (0 : Fin 1)) = w) :
    Host.gather G x idx (ix3 r a k) = x (ix2 r ⟨min w.toInt.toNat 4095, by omega⟩) := by
  unfold Host.gather
  congr 1
  funext ax
  refine Fin.ext ?_
  show G.start (ix3 r a k) idx ax + G.batchCoord (ix3 r a k) ax + G.offCoord (ix3 r a k) ax = _
  rw [GatherDims.batchCoord_eq_zero _ _ _ List.not_mem_nil, Nat.add_zero]
  match ax with
  | ⟨0, _⟩ =>
    unfold GatherDims.start
    rw [dif_neg (show ¬ ((⟨0, by decide⟩ : Fin S16384x4096.rank) ∈ G.startIndexMap) by decide), Nat.zero_add]
    unfold GatherDims.offCoord
    rw [dif_pos (show (⟨0, by decide⟩ : Fin S16384x4096.rank) ∈ G.sKept by decide)]
    rfl
  | ⟨1, _⟩ =>
    rw [GatherDims.offCoord_eq_zero _ _ _ (fun h => ((GatherDims.mem_sKept _ _).mp h).1 (List.mem_singleton.mpr rfl)),
      Nat.add_zero]
    unfold GatherDims.start
    rw [dif_pos (show (⟨1, by decide⟩ : Fin S16384x4096.rank) ∈ G.startIndexMap from List.mem_singleton.mpr rfl)]
    have hsi : G.siIdx (ix3 r a k) ⟨List.idxOf (⟨1, by decide⟩ : Fin S16384x4096.rank) G.startIndexMap,
        List.idxOf_lt_length_iff.2 (List.mem_singleton.mpr rfl)⟩ = ix3 a k (0 : Fin 1) := by
      funext b; refine Fin.ext ?_
      match b with
      | ⟨0, _⟩ => rfl
      | ⟨1, _⟩ => rfl
      | ⟨2, _⟩ => rfl
    rw [hsi, hw]
    rfl

/-- The table after the wrap, word by word. -/
theorem wrapped (nb : IVec S2x4096 32) (i : S2x4096.Idx) : val_main_v4 (F := Ideal) nb i = wrap (nb i) := by
  rw [val_main_v4_apply, val_main_v1_apply, val_main_v3_apply, val_main_v0_apply, val_main_v2_apply, val_main_c_apply,
    val_main_c_0_apply]
  rfl

/-- The gathered neighbour angle at (r, a, k). -/
theorem gathered (θ : FVec Ideal S16384x4096 .f32) (nb : IVec S2x4096 32) (r : Fin 16384) (a : Fin 2) (k : Fin 4096) :
    val_main_v6 (F := Ideal) θ nb (ix3 r a k) = θ (ix2 r (site (nb (ix2 a k)))) := by
  unfold val_main_v6
  refine (gather_apply θ _ r a k (wrap (nb (ix2 a k))) ?_).trans rfl
  rw [val_main_v5_apply, wrapped]
  congr 2
  funext b; refine Fin.ext ?_
  match b with
  | ⟨0, _⟩ => rfl
  | ⟨1, _⟩ => rfl

/-- One cosine term at (r, a, k). -/
theorem term_eq (θ : FVec Ideal S16384x4096 .f32) (nb : IVec S2x4096 32) (r : Fin 16384) (a : Fin 2) (k : Fin 4096) :
    val_main_v10 (F := Ideal) θ nb (ix3 r a k) = Ideal.cos (θ (ix2 r (site (nb (ix2 a k)))) - θ (ix2 r k)) := by
  rw [val_main_v10_apply, val_main_v9_apply, val_main_v8_apply, val_main_v7_apply, gathered]
  have e : idx_main_v7 (idx_main_v8 (ix3 r a k)) = ix2 r k := by
    funext b; refine Fin.ext ?_
    match b with
    | ⟨0, _⟩ => rfl
    | ⟨1, _⟩ => rfl
  rw [e]
  rfl

/-- The indices that reduce into sample `r` are the (r, a, k). -/
theorem sum_drop (f : S16384x2x4096.Idx → EReal) (j : S16384.Idx) (r : Fin 16384) (hj : j = ix1 r) :
    ∑ i ∈ Finset.univ.filter (fun i => reducesTo_S16384x2x4096_S16384_d1_2.drop i = j), f i
      = ∑ p : Fin 2 × Fin 4096, f (ix3 r p.1 p.2) := by
  subst hj
  have hd : ∀ i : S16384x2x4096.Idx, reducesTo_S16384x2x4096_S16384_d1_2.drop i = ix1 r ↔ (i 0).val = r.val := by
    intro i
    constructor
    · intro h
      exact (Shape.ReducesTo.drop_apply_val_of_eq reducesTo_S16384x2x4096_S16384_d1_2 i 0 0).symm.trans
        (congrArg (fun v : S16384.Idx => (v 0).val) h)
    · intro h
      funext b
      obtain rfl : b = 0 := Subsingleton.elim _ _
      refine Fin.ext ?_
      rw [Shape.ReducesTo.drop_apply_val_of_eq reducesTo_S16384x2x4096_S16384_d1_2 i 0 0]
      exact h
  have hl : ∀ i : S16384x2x4096.Idx, (i 0).val = r.val → ix3 r (i 1) (i 2) = i := by
    intro i h0
    funext b; refine Fin.ext ?_
    match b with
    | ⟨0, _⟩ => exact h0.symm
    | ⟨1, _⟩ => rfl
    | ⟨2, _⟩ => rfl
  refine Finset.sum_nbij' (fun i => (i 1, i 2)) (fun p => ix3 r p.1 p.2) ?_ ?_ ?_ ?_ ?_
  · intro i _; exact Finset.mem_univ _
  · intro p _; exact Finset.mem_filter.2 ⟨Finset.mem_univ _, (hd _).2 rfl⟩
  · intro i hi; exact hl i ((hd i).1 (Finset.mem_filter.1 hi).2)
  · intro p _; rfl
  · intro i hi; exact congrArg f (hl i ((hd i).1 (Finset.mem_filter.1 hi).2)).symm

/-- THE REFERENCE'S RESULT is the energy, for every table. -/
theorem result_eq (θ : FVec Ideal S16384x4096 .f32) (nb : IVec S2x4096 32) :
    val_main_v14 (F := Ideal) θ nb = energy θ nb := by
  funext i
  obtain ⟨r, q, rfl⟩ : ∃ (r : Fin 16384) (q : Fin 1), i = ix2 r q := ⟨i 0, i 1, eq_ix2 i⟩
  rw [val_main_v14_apply, val_main_v13_apply, val_main_cst_1_apply, val_main_v12_apply]
  have hj : idx_main_v12 (ix2 r q) = ix1 r := by
    funext b; refine Fin.ext ?_
    match b with
    | ⟨0, _⟩ => rfl
  show Ideal.ofBits .f32 0x3F800000#32 * (Ideal.ofBits .f32 0x00000000#32
      + ∑ i' ∈ Finset.univ.filter (fun i' => reducesTo_S16384x2x4096_S16384_d1_2.drop i' = idx_main_v12 (ix2 r q)),
          val_main_v10 (F := Ideal) θ nb i') = _
  rw [Ideal.ofBits_zero_f32, zero_add, sum_drop _ _ r hj, sum_pairs (fun a k => val_main_v10 (F := Ideal) θ nb (ix3 r a k))]
  unfold energy
  congr 1
  refine Finset.sum_congr rfl fun k _ => ?_
  rw [term_eq, term_eq]

end Cert.ReferenceEnergy

end
-- ==== Proof.lean ====
/-
  The XY lattice energy: a kernel that gathers each site's two neighbour angles on the host and reduces
  `cos (neighbour − angle)` over the sites in a 128-point region, against the reference that gathers both
  directions at once and sums over (direction, site).

  Both programs read a neighbour word the way array indexing does: a negative word counts from the end of the row of
  4096 sites. Outside `[-4096, 4096)` the reference's index is out of range (its gather clamps it, the kernel's take
  fills the column instead), so the claim is stated for tables whose words lie in that range, and that range is what the
  precondition's second conjunct says (`TableRange.word_range`). On it the two programs compute one function of the
  arguments, `Lattice.energy`: row r of the result is β · ∑ₖ (cos (θ[r, up k] − θ[r, k]) + cos (θ[r, right k] − θ[r, k])).
  The kernel's side: its two neighbour arrays read at an index (`Neighbours`), its blocks assembled into the array
  (`KernelEnergy`). The reference's side: its gather and its sum over two axes read at an index (`ReferenceEnergy`).
  The two sums differ only in grouping — over sites of a sum of two, against over (direction, site) — which addition
  of extended reals allows without any finiteness, so the float precondition is not used. The kernel's idealization
  rewrote nothing, so `preserves` is trivial; the three frames are the generated ones (the reference's its run with the
  result dropped).
-/
import proofs.«406329_j88691074662571_3_alg».proof.Defs
import proofs.«406329_j88691074662571_3_alg».proof.Proof.Gen.Kernel
import proofs.«406329_j88691074662571_3_alg».proof.Proof.Gen.Kernel.Skeleton
import proofs.«406329_j88691074662571_3_alg».proof.Proof.Gen.Kernel.Launch
import proofs.«406329_j88691074662571_3_alg».proof.Proof.Gen.Kernel.Points
import proofs.«406329_j88691074662571_3_alg».proof.Proof.Gen.Kernel.Frame
import proofs.«406329_j88691074662571_3_alg».proof.Proof.Gen.KernelIdeal
import proofs.«406329_j88691074662571_3_alg».proof.Proof.Gen.KernelIdeal.Skeleton
import proofs.«406329_j88691074662571_3_alg».proof.Proof.Gen.KernelIdeal.Launch
import proofs.«406329_j88691074662571_3_alg».proof.Proof.Gen.KernelIdeal.Points
import proofs.«406329_j88691074662571_3_alg».proof.Proof.Gen.KernelIdeal.Frame
import proofs.«406329_j88691074662571_3_alg».proof.Proof.Gen.ReferenceIdeal
import proofs.«406329_j88691074662571_3_alg».proof.Proof.Gen.Pre_finite_inputs
import proofs.«406329_j88691074662571_3_alg».proof.Proof.Gen.KernelIdeal.Value
import proofs.«406329_j88691074662571_3_alg».proof.Proof.Gen.ReferenceIdeal.Run
import proofs.«406329_j88691074662571_3_alg».proof.Proof.Gen.ReferenceIdeal.Read
import proofs.«406329_j88691074662571_3_alg».proof.Proof.TableRange
import proofs.«406329_j88691074662571_3_alg».proof.Proof.KernelEnergy
import proofs.«406329_j88691074662571_3_alg».proof.Proof.ReferenceEnergy
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The precondition puts every word of the neighbour table in `[-4096, 4096)`. -/
theorem table_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x4096.Idx) :
    -4096 ≤ (Cert.Neighbours.table m c i).toInt ∧ (Cert.Neighbours.table m c i).toInt < 4096 :=
  Cert.TableRange.word_range _ _ (hpre c) i

/-- From memories that agree on the angles and the table, both programs end with the lattice energy of those
    arguments in their result arrays: the kernel by its run under the table's range, the reference for any table. -/
theorem algebraic : Cert.algebraic_KernelIdeal_ReferenceIdeal := by
  intro m ρ m' ρ' hpre hagree
  refine ⟨fun c => Cert.Lattice.energy (Cert.Neighbours.angles m c) (Cert.Neighbours.table m c),
    Cert.KernelEnergy.run m ρ (fun c i => table_range m hpre c i), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceEnergy.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
